-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x8192 : Shape := ⟨2, ![2, 8192]⟩
abbrev S8192x1024 : Shape := ⟨2, ![8192, 1024]⟩
abbrev S240x8192 : Shape := ⟨2, ![240, 8192]⟩
abbrev S240 : Shape := ⟨1, ![240]⟩
abbrev S1x240 : Shape := ⟨2, ![1, 240]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S240x8192 : S_.BroadcastsInDim S240x8192 (![] : Fin 0 → Fin S240x8192.rank)
  reducesTo_S240x8192_S_d0_1 : S240x8192.ReducesTo [0, 1] S_
  bcast_S_S240 : S_.BroadcastsInDim S240 (![] : Fin 0 → Fin S240.rank)
  reducesTo_S240_S_d0 : S240.ReducesTo [0] S_
  bcast_S_S1x240 : S_.BroadcastsInDim S1x240 (![] : Fin 0 → Fin S1x240.rank)
  reducesTo_S1x240_S_d0_1 : S1x240.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x240 .f32) (main_arg6 : FVec F S1 .f32) (main_v13 : IVec S_ 1) (main_v16 : IVec S240 1) : IVec S_ 1 :=
  let main_c_5 : IVec S_ 1 := constantI S_ 1 1#1
  let main_v17 : IVec S_ 1 := (fun x v => Host.reduce IntOp.andi x v reducesTo_S240_S_d0 h_S_) main_v16 main_c_5
  let main_v18 : IVec S_ 1 := andi main_v13 main_v17
  let main_v19 : FVec F S1x240 .f32 := Host.absf main_arg5
  let main_cst_6 : FVec F S_ .f32 := constant S_ .f32 0x7F800000#32
  let main_v20 : FVec F S1x240 .f32 := broadcastInDim S1x240 ![] bcast_S_S1x240 main_cst_6
  let main_v21 : IVec S1x240 1 := cmpf .olt main_v19 main_v20
  let main_c_7 : IVec S_ 1 := constantI S_ 1 1#1
  let main_v22 : IVec S_ 1 := (fun x v => Host.reduce IntOp.andi x v reducesTo_S1x240_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S10000x128 .f32) (main_arg1 : IVec S2x8192 32) (main_arg2 : FVec F S8192x1024 .f32) (main_arg3 : FVec F S240x8192 .f32) (main_arg4 : FVec F S240 .f32) (main_arg5 : FVec F S1x240 .f32) (main_arg6 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S240x8192 .f32 := Host.absf main_arg3
  let main_cst_2 : FVec F S_ .f32 := constant S_ .f32 0x7F800000#32
  let main_v10 : FVec F S240x8192 .f32 := broadcastInDim S240x8192 ![] bcast_S_S240x8192 main_cst_2
  let main_v11 : IVec S240x8192 1 := cmpf .olt main_v9 main_v10
  let main_c_3 : IVec S_ 1 := constantI S_ 1 1#1
  let main_v12 : IVec S_ 1 := (fun x v => Host.reduce IntOp.andi x v reducesTo_S240x8192_S_d0_1 h_S_) main_v11 main_c_3
  let main_v13 : IVec S_ 1 := andi main_v8 main_v12
  let main_v14 : FVec F S240 .f32 := Host.absf main_arg4
  let main_cst_4 : FVec F S_ .f32 := constant S_ .f32 0x7F800000#32
  let main_v15 : FVec F S240 .f32 := broadcastInDim S240 ![] bcast_S_S240 main_cst_4
  let main_v16 : IVec S240 1 := cmpf .olt main_v14 main_v15
  fn_part1 (F := F) main_arg5 main_arg6 main_v13 main_v16
-- ==== Kernel.lean ====
abbrev S10000x128 : Shape := ⟨2, ![10000, 128]⟩
abbrev S2x8192 : Shape := ⟨2, ![2, 8192]⟩
abbrev S8192x1024 : Shape := ⟨2, ![8192, 1024]⟩
abbrev S240x8192 : Shape := ⟨2, ![240, 8192]⟩
abbrev S240 : Shape := ⟨1, ![240]⟩
abbrev S1x240 : Shape := ⟨2, ![1, 240]⟩
abbrev S1 : Shape := ⟨1, ![1]⟩
abbrev S240x1 : Shape := ⟨2, ![240, 1]⟩
abbrev S1x1 : Shape := ⟨2, ![1, 1]⟩
abbrev S1x1024 : Shape := ⟨2, ![1, 1024]⟩
abbrev S8192x256 : Shape := ⟨2, ![8192, 256]⟩
abbrev S1x256 : Shape := ⟨2, ![1, 256]⟩
abbrev S240x256 : Shape := ⟨2, ![240, 256]⟩
abbrev S256 : Shape := ⟨1, ![256]⟩
abbrev S10000x1024 : Shape := ⟨2, ![10000, 1024]⟩
abbrev S1000x1024 : Shape := ⟨2, ![1000, 1024]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S2x8192, .i32⟩
  | .hbm, ⟨2, _⟩ => ⟨S8192x1024, .f32⟩
  | .hbm, ⟨3, _⟩ => ⟨S240x8192, .f32⟩
  | .hbm, ⟨4, _⟩ => ⟨S240, .f32⟩
  | .hbm, ⟨5, _⟩ => ⟨S1x240, .f32⟩
  | .hbm, ⟨6, _⟩ => ⟨S1, .f32⟩
  | .hbm, ⟨7, _⟩ => ⟨S240x1, .f32⟩
  | .hbm, ⟨8, _⟩ => ⟨S1x1, .f32⟩
  | .hbm, ⟨9, _⟩ => ⟨S1x1024, .f32⟩
  | .hbm, ⟨10, _⟩ => ⟨S10000x1024, .f32⟩
  | .local _ .vmem, ⟨0, _⟩ => ⟨S240x8192, .f32⟩
  | .local _ .vmem, ⟨1, _⟩ => ⟨S240x1, .f32⟩
  | .local _ .vmem, ⟨2, _⟩ => ⟨S1x240, .f32⟩
  | .local _ .vmem, ⟨3, _⟩ => ⟨S1x1, .f32⟩
  | .local _ .vmem, ⟨4, _⟩ => ⟨S8192x256, .f32⟩
  | .local _ .vmem, ⟨5, _⟩ => ⟨S8192x256, .f32⟩
  | .local _ .vmem, ⟨6, _⟩ => ⟨S1x256, .f32⟩
  | .local _ .vmem, ⟨7, _⟩ => ⟨S1x256, .f32⟩
  | .local _ .vmem, ⟨8, _⟩ => ⟨S1x1024, .f32⟩
  | .local _ .vmem, ⟨9, _⟩ => ⟨S1000x1024, .f32⟩
  | .local _ .vmem, ⟨10, _⟩ => ⟨S1000x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S240x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S240x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1000x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S240_S240x1 : S240.ShapeCasts S240x1
  shapeCasts_S1_S1x1 : S1.ShapeCasts S1x1
  inb_S240x8192_S240x8192_0_0 : ∀ a, (![0, 0] : Fin 2 → Nat) a + S240x8192.size a ≤ S240x8192.size a
  h_S240x8192 : 0 < S240x8192.numel
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  inb_S240x1_S240x1_0_0 : ∀ a, (![0, 0] : Fin 2 → Nat) a + S240x1.size a ≤ S240x1.size a
  h_S240x1 : 0 < S240x1.numel
  shapeCasts_S240x1_S240x1 : S240x1.ShapeCasts S240x1
  broadcasts_S240x1_S240x256 : S240x1.Broadcasts S240x256
  inb_S1x240_S1x240_0_0 : ∀ a, (![0, 0] : Fin 2 → Nat) a + S1x240.size a ≤ S1x240.size a
  h_S1x240 : 0 < S1x240.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x256 : S1x1.Broadcasts S1x256
  broadcasts_S1x256_S240x256 : S1x256.Broadcasts S240x256
  reduces_S240x256_S256 : S240x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  dot_S240x8192_S8192x256_S240x256_1_0_0_1_n_n_wf : DotDims.WF S240x8192 S8192x256 S240x256 [1] [0] [0] [1] [] []
  dot_S1x240_S240x256_S1x256_1_0_0_1_n_n_wf : DotDims.WF S1x240 S240x256 S1x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S240x8192.size a ≤ S240x8192.size a
  hwx0_0 : ∀ i : grid0.Coords, EltTy.bits .f32 = 32 ∨ (Rect.block (s := S240x8192) S240x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S240x1.size a ≤ S240x1.size a
  hwx0_1 : ∀ i : grid0.Coords, EltTy.bits .f32 = 32 ∨ (Rect.block (s := S240x1) S240x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x240.size a ≤ S1x240.size a
  hwx0_2 : ∀ i : grid0.Coords, EltTy.bits .f32 = 32 ∨ (Rect.block (s := S1x240) S1x240.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x256.size a ≤ S8192x1024.size a
  hwx0_4 : ∀ i : grid0.Coords, EltTy.bits .f32 = 32 ∨ (Rect.block (s := S8192x1024) S8192x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x1024.size a
  hwx0_5 : ∀ i : grid0.Coords, EltTy.bits .f32 = 32 ∨ (Rect.block (s := S1x1024) S1x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1024.size a ≤ S10000x1024.size a
  hwx1_1 : ∀ i : grid1.Coords, EltTy.bits .f32 = 32 ∨ (Rect.block (s := S10000x1024) S1000x1024.size (cc1_transform_1 i) (hinb1_1 i)).WholeWords (EltTy.packing .f32)

variable [Facts₀]

def dot_S240x8192_S8192x256_S240x256_1_0_0_1_n_n : DotDims S240x8192 S8192x256 S240x256 where
  lhsContracting := [1]
  rhsContracting := [0]
  lhsNonContracting := [0]
  rhsNonContracting := [1]
  lhsBatch := []
  rhsBatch := []
  wf := dot_S240x8192_S8192x256_S240x256_1_0_0_1_n_n_wf
def dot_S1x240_S240x256_S1x256_1_0_0_1_n_n : DotDims S1x240 S240x256 S1x256 where
  lhsContracting := [1]
  rhsContracting := [0]
  lhsNonContracting := [0]
  rhsNonContracting := [1]
  lhsBatch := []
  rhsBatch := []
  wf := dot_S1x240_S240x256_S1x256_1_0_0_1_n_n_wf

abbrev win0_0 : Pipeline.Window sig grid0 :=
  Pipeline.Window.ofSpec (Memref.whole main_arg3) S240x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S240x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x240.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S8192x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1000x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x8192 : Shape := ⟨2, ![2, 8192]⟩
abbrev S8192x1024 : Shape := ⟨2, ![8192, 1024]⟩
abbrev S240x8192 : Shape := ⟨2, ![240, 8192]⟩
abbrev S240 : Shape := ⟨1, ![240]⟩
abbrev S1x240 : Shape := ⟨2, ![1, 240]⟩
abbrev S1 : Shape := ⟨1, ![1]⟩
abbrev S240x1024 : Shape := ⟨2, ![240, 1024]⟩
abbrev S240x1 : Shape := ⟨2, ![240, 1]⟩
abbrev S_ : Shape := ⟨0, ![]⟩
abbrev S1x1024 : Shape := ⟨2, ![1, 1024]⟩
abbrev S1x1 : Shape := ⟨2, ![1, 1]⟩
abbrev S1024 : Shape := ⟨1, ![1024]⟩
abbrev S10000x1024 : Shape := ⟨2, ![10000, 1024]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x8192, .i32⟩
  | .hbm, ⟨2, _⟩ => ⟨S8192x1024, .f32⟩
  | .hbm, ⟨3, _⟩ => ⟨S240x8192, .f32⟩
  | .hbm, ⟨4, _⟩ => ⟨S240, .f32⟩
  | .hbm, ⟨5, _⟩ => ⟨S1x240, .f32⟩
  | .hbm, ⟨6, _⟩ => ⟨S1, .f32⟩
  | .hbm, ⟨7, _⟩ => ⟨S240x1024, .f32⟩
  | .hbm, ⟨8, _⟩ => ⟨S240x1, .f32⟩
  | .hbm, ⟨9, _⟩ => ⟨S240x1024, .f32⟩
  | .hbm, ⟨10, _⟩ => ⟨S240x1024, .f32⟩
  | .hbm, ⟨11, _⟩ => ⟨S_, .f32⟩
  | .hbm, ⟨12, _⟩ => ⟨S240x1024, .f32⟩
  | .hbm, ⟨13, _⟩ => ⟨S240x1024, .f32⟩
  | .hbm, ⟨14, _⟩ => ⟨S1x1024, .f32⟩
  | .hbm, ⟨15, _⟩ => ⟨S1x1, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S240x1024, .f32⟩
  | .hbm, ⟨32, _⟩ => ⟨S240x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S10000x1024, .f32⟩
  | .hbm, ⟨37, _⟩ => ⟨S_, .f32⟩
  | .hbm, ⟨38, _⟩ => ⟨S10000x1024, .f32⟩
  | .hbm, ⟨39, _⟩ => ⟨S10000x1024, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S240_S240x1_0 : S240.BroadcastsInDim S240x1 (![0] : Fin 1 → Fin S240x1.rank)
  bcast_S240x1_S240x1024_0_1 : S240x1.BroadcastsInDim S240x1024 (![0, 1] : Fin 2 → Fin S240x1024.rank)
  bcast_S_S240x1024 : S_.BroadcastsInDim S240x1024 (![] : Fin 0 → Fin S240x1024.rank)
  bcast_S1_S1x1_0 : S1.BroadcastsInDim S1x1 (![0] : Fin 1 → Fin S1x1.rank)
  bcast_S1x1_S1x1024_0_1 : S1x1.BroadcastsInDim S1x1024 (![0, 1] : Fin 2 → Fin S1x1024.rank)
  shapeCasts_S1x1024_S1024 : S1x1024.ShapeCasts S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S240x1024_0_1 : S1x1024.BroadcastsInDim S240x1024 (![0, 1] : Fin 2 → Fin S240x1024.rank)
  reducesTo_S240x1024_S1024_d0 : S240x1024.ReducesTo [0] S1024
  h_S_ : 0 < S_.numel
  bcast_S1x1024_S10000x1024_0_1 : S1x1024.BroadcastsInDim S10000x1024 (![0, 1] : Fin 2 → Fin S10000x1024.rank)
  bcast_S_S10000x1024 : S_.BroadcastsInDim S10000x1024 (![] : Fin 0 → Fin S10000x1024.rank)
  dot_S240x8192_S8192x1024_S240x1024_1_0_0_1_n_n_wf : DotDims.WF S240x8192 S8192x1024 S240x1024 [1] [0] [0] [1] [] []
  dot_S1x240_S240x1024_S1x1024_1_0_0_1_n_n_wf : DotDims.WF S1x240 S240x1024 S1x1024 [1] [0] [0] [1] [] []

variable [Facts₀]

def dot_S240x8192_S8192x1024_S240x1024_1_0_0_1_n_n : DotDims S240x8192 S8192x1024 S240x1024 where
  lhsContracting := [1]
  rhsContracting := [0]
  lhsNonContracting := [0]
  rhsNonContracting := [1]
  lhsBatch := []
  rhsBatch := []
  wf := dot_S240x8192_S8192x1024_S240x1024_1_0_0_1_n_n_wf
def dot_S1x240_S240x1024_S1x1024_1_0_0_1_n_n : DotDims S1x240 S240x1024 S1x1024 where
  lhsContracting := [1]
  rhsContracting := [0]
  lhsNonContracting := [0]
  rhsNonContracting := [1]
  lhsBatch := []
  rhsBatch := []
  wf := dot_S1x240_S240x1024_S1x1024_1_0_0_1_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.ColumnSpec.lean ====
/-
  The node value as one function of a column of edge features.

  Every row of the result is the same vector, and its entry at position l depends on the edge features only through
  their column l. For a column x (one value per edge) and the weights W₃ (240 × 8192), b₃, W₄ (1 × 240), b₄:
      a_c    =  max(Σ_k W₃[c,k]·x_k + b₃[c], 0)        channel c of the first convolution, after the rectifier
      g      =  1 + σ(Σ_c W₄[0,c]·a_c + b₄)             one plus the sigmoid gate of the column
      value  =  (Σ_c a_c·g) · 2⁻¹⁰                       the gated channel sum, over the length 1024
  on the extended reals, with σ(z) = 1/(1 + e^(−z)) and its limits at the infinities.
  One program multiplies the channel sum by 2⁻¹⁰ and the other divides it by 1024: the same extended real whatever the
  sum is, because 1024 is a nonzero real (`scale_eq`). One program applies the logistic function and the other spells
  it as a quotient over an exponential: the same function by definition (`sigmoid_eq`).
-/
import Idealize.ShloMosaic.PureOps.Ideal
import Idealize.ShloMosaic.PureOps.Ideal.Laws
import Idealize.ShloMosaic.Lib.ValueIdx

noncomputable section

namespace Cert.ColumnSpec

open Idealize.ShloMosaic Idealize.ShloMosaic.ValueIdx

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `9.765625e-4` denotes the dyadic 2⁻¹⁰, which is 1/1024 exactly. -/
theorem ofBits_inv1024 : Ideal.ofBits .f32 0x3A800000#32 = ((1 / 1024 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

/-- Multiplying by 2⁻¹⁰ is dividing by 1024, at every extended real. -/
theorem scale_eq (x : EReal) :
    x * Ideal.ofBits .f32 0x3A800000#32 = Ideal.div x (Ideal.ofBits .f32 0x44800000#32) := by
  rw [ofBits_1024, ofBits_inv1024, Ideal.div_coe (by norm_num : (1024 : ℝ) ≠ 0)]

/-- One over one plus the exponential of the negation is the logistic function. -/
theorem sigmoid_eq (z : EReal) :
    Ideal.div (Ideal.ofBits .f32 0x3F800000#32) (Ideal.ofBits .f32 0x3F800000#32 + Ideal.exp (-z)) = Ideal.logistic z := by
  rw [ofBits_one]; rfl

/-- Channel `c` of the first convolution on the column `x`, after the rectifier. -/
def act (w3 : (⟨2, ![240, 8192]⟩ : Shape).Idx → EReal) (b3 : Fin 240 → EReal) (x : Fin 8192 → EReal) (c : Fin 240) : EReal :=
  max ((∑ k : Fin 8192, w3 (ix2 c k) * x k) + b3 c) (Ideal.ofBits .f32 0x00000000#32)

/-- One plus the sigmoid of the second convolution of the channels `a`. -/
def gate (w4 : (⟨2, ![1, 240]⟩ : Shape).Idx → EReal) (b4 : EReal) (a : Fin 240 → EReal) : EReal :=
  Ideal.ofBits .f32 0x3F800000#32 + Ideal.logistic ((∑ c : Fin 240, w4 (ix2 0 c) * a c) + b4)

/-- The result's entry in the column `x`: the gated channels summed, times 2⁻¹⁰. -/
def value (w3 : (⟨2, ![240, 8192]⟩ : Shape).Idx → EReal) (b3 : Fin 240 → EReal) (w4 : (⟨2, ![1, 240]⟩ : Shape).Idx → EReal)
    (b4 : EReal) (x : Fin 8192 → EReal) : EReal :=
  (∑ c : Fin 240, act w3 b3 x c * gate w4 b4 (act w3 b3 x)) * Ideal.ofBits .f32 0x3A800000#32

end Cert.ColumnSpec

end
-- ==== Proof.TileBody.lean ====
/-
  What one grid point of the first kernel stores, entry by entry.

  The body loads the whole weight blocks and one block of 256 columns of the edge features, and stores a row of 256
  values. Its entry q is the column value (ColumnSpec) of column q of the loaded block: the first matrix product
  contracts all 8192 edges inside the block, so channel c at column q is Σ_k W₃[c,k]·x[k,q]; the bias column is
  broadcast along the columns; the second product contracts the 240 channels; the gate row is broadcast down the
  channels; the channel sum is the lane reduction into zero; the format changes are the identity on the extended reals.
-/
import proofs.«145573_j77884936945808_1_alg».proof.Proof.Gen.KernelIdeal.Skeleton
import proofs.«145573_j77884936945808_1_alg».proof.Proof.LibPlainDot
import proofs.«145573_j77884936945808_1_alg».proof.Proof.ColumnSpec
import Idealize.ShloMosaic.Lib.Pipeline.Value
import Idealize.ShloMosaic.Lib.ValueIdx
import Idealize.ShloMosaic.PureOps.Ideal.Laws

noncomputable section

namespace Cert.KernelIdeal.TileBody

open Cert.KernelIdeal Cert.KernelIdeal.Gen Idealize.ShloMosaic Idealize.ShloMosaic.ValueIdx Cert.ColumnSpec Cert.LibPlainDot

/-- The first product's dimension numbers are the plain ones: rows × edges times edges × columns. -/
theorem dot3_plain : dot_S240x8192_S8192x256_S240x256_1_0_0_1_n_n = DotDims.plain 240 8192 256 := rfl
/-- The second product's likewise: one row × channels times channels × columns. -/
theorem dot4_plain : dot_S1x240_S240x256_S1x256_1_0_0_1_n_n = DotDims.plain 1 240 256 := rfl

/-- A column of 240 values broadcast along 256 columns reads, at (c, q), the column at c. -/
theorem biasCol_apply (v : Vec Ideal S240x1 .f32) (c : Fin 240) (q : Fin 256) :
    broadcastTo S240x256 (shapeCast S240x1 v Facts₀.shapeCasts_S240x1_S240x1) Facts₀.broadcasts_S240x1_S240x256 (ix2 c q) = v (ix2 c 0) := by
  rw [shapeCast_self]
  exact broadcastTo_apply v _ (ix2 c q) (ix2 c 0) fun a => by
    match a with
    | ⟨0, _⟩ => show c.val = if (240 : Nat) = 1 then 0 else c.val; rw [if_neg (by decide)]
    | ⟨1, _⟩ => show (0 : Nat) = if (1 : Nat) = 1 then 0 else _; rw [if_pos rfl]

/-- A single value broadcast along 256 columns reads that value everywhere. -/
theorem biasCell_apply (v : Vec Ideal S1x1 .f32) (q : Fin 256) :
    broadcastTo S1x256 (shapeCast S1x1 v Facts₀.shapeCasts_S1x1_S1x1) Facts₀.broadcasts_S1x1_S1x256 (ix2 (0 : Fin 1) q) = v (ix2 0 0) := by
  rw [shapeCast_self]
  exact broadcastTo_apply v _ (ix2 (0 : Fin 1) q) (ix2 0 0) fun a => by
    match a with
    | ⟨0, _⟩ => show (0 : Nat) = if (1 : Nat) = 1 then 0 else _; rw [if_pos rfl]
    | ⟨1, _⟩ => show (0 : Nat) = if (1 : Nat) = 1 then 0 else _; rw [if_pos rfl]

/-- A row of 256 values broadcast down 240 rows reads, at (c, q), the row at q. -/
theorem gateRow_apply (v : FVec Ideal S1x256 .f32) (c : Fin 240) (q : Fin 256) :
    broadcastTo S240x256 v Facts₀.broadcasts_S1x256_S240x256 (ix2 c q) = v (ix2 0 q) :=
  broadcastTo_apply v _ (ix2 c q) (ix2 0 q) fun a => by
    match a with
    | ⟨0, _⟩ => show (0 : Nat) = if (1 : Nat) = 1 then 0 else _; rw [if_pos rfl]
    | ⟨1, _⟩ => show q.val = if (256 : Nat) = 1 then 0 else q.val; rw [if_neg (by decide)]

/-- The channel sum recast as a one-row matrix reads, at (0, q), the sum at q. -/
theorem sumRow_apply (v : FVec Ideal S256 .f32) (q : Fin 256) :
    shapeCast S1x256 v Facts₀.shapeCasts_S256_S1x256 (ix2 (0 : Fin 1) q) = v (ix1 q) :=
  shapeCast_apply v _ (ix2 (0 : Fin 1) q) (ix1 q) (by
    rw [Shape.rowMajor_val_one, Shape.rowMajor_val_two]
    show q.val = (0 : Nat) * 256 + q.val
    omega)

/-! ## The body's three stages -/

/-- The rectified channels of the tile: the first product plus the bias column, against zero. -/
def tileAct (v0 : Vec Ideal S240x8192 .f32) (v2 : Vec Ideal S8192x256 .f32) (v5 : Vec Ideal S240x1 .f32) : FVec Ideal S240x256 .f32 :=
  maximumf (addf (matmul dot_S240x8192_S8192x256_S240x256_1_0_0_1_n_n none (truncf .bf16 v0 Facts₀.bitsLt_bf16_f32) (truncf .bf16 v2 Facts₀.bitsLt_bf16_f32) (constant S240x256 .f32 0x00000000#32))
    (broadcastTo S240x256 (shapeCast S240x1 v5 Facts₀.shapeCasts_S240x1_S240x1) Facts₀.broadcasts_S240x1_S240x256))
    (broadcast S240x256 (Scalar.ofBits .f32 0x00000000#32))

/-- Channel c of the tile at column q is the specification's channel c on column q of the loaded block. -/
theorem tileAct_apply (v0 : Vec Ideal S240x8192 .f32) (v2 : Vec Ideal S8192x256 .f32) (v5 : Vec Ideal S240x1 .f32) (c : Fin 240) (q : Fin 256) :
    tileAct v0 v2 v5 (ix2 c q) = act v0 (fun c => v5 (ix2 c 0)) (fun k => v2 (ix2 k q)) c := by
  unfold tileAct act
  rw [maximumf_apply, addf_apply, biasCol_apply, dot3_plain]
  simp only [matmul]
  rw [matmul_plain_zero]
  exact congrArg₂ max (congrArg (· + v5 (ix2 c 0)) (Finset.sum_congr rfl fun k _ => rfl)) rfl

/-- The gate row of the tile: one plus the logistic of the second product plus its bias. -/
def tileGate (a : FVec Ideal S240x256 .f32) (v12 : Vec Ideal S1x240 .f32) (v15 : Vec Ideal S1x1 .f32) : FVec Ideal S1x256 .f32 :=
  addf (broadcast S1x256 (Scalar.ofBits .f32 0x3F800000#32))
    (logistic (addf (matmul dot_S1x240_S240x256_S1x256_1_0_0_1_n_n none (truncf .bf16 v12 Facts₀.bitsLt_bf16_f32) (truncf .bf16 a Facts₀.bitsLt_bf16_f32) (constant S1x256 .f32 0x00000000#32))
      (broadcastTo S1x256 (shapeCast S1x1 v15 Facts₀.shapeCasts_S1x1_S1x1) Facts₀.broadcasts_S1x1_S1x256)))

/-- The logistic function of a vector, entry by entry. -/
theorem logistic_apply {s : Shape} (v : FVec Ideal s .f32) (i : s.Idx) : logistic v i = Ideal.logistic (v i) := rfl

/-- The gate at column q is the specification's gate of that column's channels. -/
theorem tileGate_apply (a : FVec Ideal S240x256 .f32) (v12 : Vec Ideal S1x240 .f32) (v15 : Vec Ideal S1x1 .f32) (q : Fin 256) :
    tileGate a v12 v15 (ix2 (0 : Fin 1) q) = gate v12 (v15 (ix2 0 0)) (fun c => a (ix2 c q)) := by
  unfold tileGate gate
  rw [addf_apply, logistic_apply, addf_apply, biasCell_apply, dot4_plain]
  simp only [matmul]
  rw [matmul_plain_zero]
  exact congrArg (Ideal.ofBits .f32 0x3F800000#32 + Ideal.logistic ·) (congrArg (· + v15 (ix2 0 0)) (Finset.sum_congr rfl fun k _ => rfl))

/-- The gated channels of the tile: each channel times the gate row broadcast down the channels. -/
def tileProd (v0 : Vec Ideal S240x8192 .f32) (v2 : Vec Ideal S8192x256 .f32) (v5 : Vec Ideal S240x1 .f32)
    (v12 : Vec Ideal S1x240 .f32) (v15 : Vec Ideal S1x1 .f32) : FVec Ideal S240x256 .f32 :=
  mulf (tileAct v0 v2 v5) (broadcastTo S240x256 (tileGate (tileAct v0 v2 v5) v12 v15) Facts₀.broadcasts_S1x256_S240x256)

/-- At (c, q): channel c of column q times that column's gate. -/
theorem tileProd_apply (v0 : Vec Ideal S240x8192 .f32) (v2 : Vec Ideal S8192x256 .f32) (v5 : Vec Ideal S240x1 .f32)
    (v12 : Vec Ideal S1x240 .f32) (v15 : Vec Ideal S1x1 .f32) (c : Fin 240) (q : Fin 256) :
    tileProd v0 v2 v5 v12 v15 (ix2 c q)
      = act v0 (fun c => v5 (ix2 c 0)) (fun k => v2 (ix2 k q)) c
        * gate v12 (v15 (ix2 0 0)) (act v0 (fun c => v5 (ix2 c 0)) (fun k => v2 (ix2 k q))) := by
  unfold tileProd
  rw [mulf_apply, gateRow_apply, tileGate_apply, tileAct_apply]
  exact congrArg (act v0 (fun c => v5 (ix2 c 0)) (fun k => v2 (ix2 k q)) c * gate v12 (v15 (ix2 0 0)) ·)
    (funext fun c' => tileAct_apply v0 v2 v5 c' q)

/-- The stored row is these stages composed: by unfolding. -/
theorem pay_eq (v0 : Vec Ideal S240x8192 .f32) (v2 : Vec Ideal S8192x256 .f32) (v5 : Vec Ideal S240x1 .f32)
    (v12 : Vec Ideal S1x240 .f32) (v15 : Vec Ideal S1x1 .f32) :
    k0_pay1 (F := Ideal) v0 v2 v5 v12 v15
      = mulf (shapeCast S1x256 (multiReduction .add [0] S256 (tileProd v0 v2 v5 v12 v15)
          0x00000000#32 Facts₀.reduces_S240x256_S256 (.inl rfl) rfl) Facts₀.shapeCasts_S256_S1x256)
        (broadcast S1x256 (Scalar.ofBits .f32 0x3A800000#32)) := rfl

/-- THE STORE at entry q is the column value of column q of the loaded block. -/
theorem pay_apply (v0 : Vec Ideal S240x8192 .f32) (v2 : Vec Ideal S8192x256 .f32) (v5 : Vec Ideal S240x1 .f32)
    (v12 : Vec Ideal S1x240 .f32) (v15 : Vec Ideal S1x1 .f32) (q : Fin 256) :
    k0_pay1 (F := Ideal) v0 v2 v5 v12 v15 (ix2 (0 : Fin 1) q)
      = value v0 (fun c => v5 (ix2 c 0)) v12 (v15 (ix2 0 0)) (fun k => v2 (ix2 k q)) := by
  rw [pay_eq, mulf_apply, sumRow_apply]
  unfold value
  refine congrArg₂ (· * ·) ?_ rfl
  refine (Ideal.multiReduction_add_single (tileProd v0 v2 v5 v12 v15) 0x00000000#32 Facts₀.reduces_S240x256_S256
    (.inl rfl) rfl (ix1 q)).trans ?_
  refine Finset.sum_congr rfl fun c _ => ?_
  refine (congrArg (tileProd v0 v2 v5 v12 v15) (funext fun a => Fin.ext (by
    match a with
    | ⟨0, _⟩ => rfl
    | ⟨1, _⟩ => rfl) : Facts₀.reduces_S240x256_S256.lift (ix1 q) c = ix2 c q)).trans ?_
  exact tileProd_apply v0 v2 v5 v12 v15 c q

end Cert.KernelIdeal.TileBody

end
-- ==== Proof.RowArray.lean ====
/-
  The array the first kernel leaves: one row of 1024 column values.

  Grid point t of the four stages the whole weight arrays (their blocks are the arrays) and columns 256·t … 256·t + 255 of
  the edge features, and writes back entries 256·t … 256·t + 255 of the row. So entry l of the row is written by point
  l / 256 and holds the column value of column l of the edge features; the four blocks tile the row.
-/
import proofs.«145573_j77884936945808_1_alg».proof.Proof.Gen.KernelIdeal.Frame
import proofs.«145573_j77884936945808_1_alg».proof.Proof.TileBody

set_option maxRecDepth 16384

noncomputable section

namespace Cert.KernelIdeal.RowArray

open Cert.KernelIdeal Cert.KernelIdeal.Gen Idealize.ShloMosaic Idealize.ShloMosaic.TcCoe Idealize.ShloMosaic.ValueIdx
open Idealize.SL.Sem Cert.ColumnSpec Cert.KernelIdeal.TileBody
open Idealize.ShloMosaic.Pipeline (Dat)

/-- The row as a function of the arrays the kernel reads: entry l is the column value of column l. -/
def rowOf (w3 : Vec Ideal S240x8192 .f32) (b3 : Vec Ideal S240x1 .f32) (w4 : Vec Ideal S1x240 .f32) (b4 : Vec Ideal S1x1 .f32)
    (ea : Vec Ideal S8192x1024 .f32) : Vec Ideal S1x1024 .f32 :=
  fun i => value w3 (fun c => b3 (ix2 c 0)) w4 (b4 (ix2 0 0)) (fun k => ea (ix2 k (i 1)))

/-- One point's store at entry j is the row at index i, when the point's blocks are the weight arrays and column (j 1) of
    its feature block is column (i 1) of the features. -/
theorem point_eq (x0 : Vec Ideal S240x8192 .f32) (x1 : Vec Ideal S240x1 .f32) (x2 : Vec Ideal S1x240 .f32) (x3 : Vec Ideal S1x1 .f32)
    (x4 : Vec Ideal S8192x256 .f32) (w3 : Vec Ideal S240x8192 .f32) (b3 : Vec Ideal S240x1 .f32) (w4 : Vec Ideal S1x240 .f32)
    (b4 : Vec Ideal S1x1 .f32) (ea : Vec Ideal S8192x1024 .f32) (j : S1x256.Idx) (i : S1x1024.Idx)
    (h0 : x0 = w3) (h1 : x1 = b3) (h2 : x2 = w4) (h3 : x3 = b4) (h4 : ∀ k : Fin 8192, x4 (ix2 k (j 1)) = ea (ix2 k (i 1))) :
    k0_pay1 (F := Ideal) x0 x4 x1 x2 x3 j = rowOf w3 b3 w4 b4 ea i := by
  subst h0 h1 h2 h3
  obtain ⟨p, q, rfl⟩ : ∃ (p : Fin 1) (q : Fin 256), j = ix2 p q := ⟨j 0, j 1, eq_ix2 j⟩
  obtain rfl : p = 0 := Subsingleton.elim _ _
  rw [pay_apply]
  unfold rowOf
  exact congrArg (value x0 (fun c => x1 (ix2 c 0)) x2 (x3 (ix2 0 0))) (funext h4)

theorem hz : (![0, 0] : Fin 2 → Nat) = fun _ => 0 := funext fun a => by fin_cases a <;> rfl

/-- The printed index maps over the four points: the weight windows stay at block (0, 0); the feature window and the
    row window are at block (0, t). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

variable (V : (c : Dev nD) → (b : Ref sig .tc) → Buf (Elt Ideal) ((c : Thread nD τ).loc b))

/-- WHAT POINT t WRITES BACK is block t of the row of the arrays as the region finds them. -/
theorem flushed_eq (c : Dev nD) (t : Fin cfg0.N) :
    (dat0 V c).flushed 5 t = ((cfg0.win 5).blk t).view.read (Elt Ideal)
      (rowOf (V c main_arg3) (V c main_v0) (V c main_arg5) (V c main_v1) (V c main_arg2)) := by
  show (cfg0.win 5).cut (grid0.coords t) ((dat0 V c).after 5 t) = _
  rw [after0_5]
  unfold out0_5
  rw [View.canon_unit_zero hz]
  simp only [View.ld_unit_zero (S := S240x8192) hz, View.ld_unit_zero (S := S8192x256) hz, View.ld_unit_zero (S := S240x1) hz,
    View.ld_unit_zero (S := S1x240) hz, View.ld_unit_zero (S := S1x1) hz]
  obtain ⟨e00, e01, e10, e11, e20, e21, e30, e31, e40, e41, e50, e51⟩ := idx_facts t
  funext j
  show k0_pay1 (F := Ideal) (iblk0 V c 0 t) (iblk0 V c 4 t) (iblk0 V c 1 t) (iblk0 V c 2 t) (iblk0 V c 3 t) j
    = rowOf (V c main_arg3) (V c main_v0) (V c main_arg5) (V c main_v1) (V c main_arg2) (((cfg0.win 5).blk t).view.emb j)
  refine point_eq (iblk0 V c 0 t) (iblk0 V c 1 t) (iblk0 V c 2 t) (iblk0 V c 3 t) (iblk0 V c 4 t)
    (V c main_arg3) (V c main_v0) (V c main_arg5) (V c main_v1) (V c main_arg2) j (((cfg0.win 5).blk t).view.emb j) ?_ ?_ ?_ ?_ ?_
  · funext y
    show V c main_arg3 (((cfg0.win 0).blk t).view.emb y) = V c main_arg3 y
    refine congrArg (V c main_arg3) (funext fun a => Fin.ext ?_)
    match a with
    | ⟨0, _⟩ => show win0_0.index t (0 : Fin 2) * 240 + 1 * (y 0).val = (y 0).val; omega
    | ⟨1, _⟩ => show win0_0.index t (1 : Fin 2) * 8192 + 1 * (y 1).val = (y 1).val; omega
  · funext y
    show V c main_v0 (((cfg0.win 1).blk t).view.emb y) = V c main_v0 y
    refine congrArg (V c main_v0) (funext fun a => Fin.ext ?_)
    match a with
    | ⟨0, _⟩ => show win0_1.index t (0 : Fin 2) * 240 + 1 * (y 0).val = (y 0).val; omega
    | ⟨1, _⟩ => show win0_1.index t (1 : Fin 2) * 1 + 1 * (y 1).val = (y 1).val; omega
  · funext y
    show V c main_arg5 (((cfg0.win 2).blk t).view.emb y) = V c main_arg5 y
    refine congrArg (V c main_arg5) (funext fun a => Fin.ext ?_)
    match a with
    | ⟨0, _⟩ => show win0_2.index t (0 : Fin 2) * 1 + 1 * (y 0).val = (y 0).val; omega
    | ⟨1, _⟩ => show win0_2.index t (1 : Fin 2) * 240 + 1 * (y 1).val = (y 1).val; omega
  · funext y
    show V c main_v1 (((cfg0.win 3).blk t).view.emb y) = V c main_v1 y
    refine congrArg (V c main_v1) (funext fun a => Fin.ext ?_)
    match a with
    | ⟨0, _⟩ => show win0_3.index t (0 : Fin 2) * 1 + 1 * (y 0).val = (y 0).val; omega
    | ⟨1, _⟩ => show win0_3.index t (1 : Fin 2) * 1 + 1 * (y 1).val = (y 1).val; omega
  · intro k
    show V c main_arg2 (((cfg0.win 4).blk t).view.emb (ix2 k (j 1))) = V c main_arg2 (ix2 k ((((cfg0.win 5).blk t).view.emb j) 1))
    refine congrArg (V c main_arg2) (funext fun a => Fin.ext ?_)
    match a with
    | ⟨0, _⟩ => show win0_4.index t (0 : Fin 2) * 8192 + 1 * k.val = k.val; omega
    | ⟨1, _⟩ => show win0_4.index t (1 : Fin 2) * 256 + 1 * (j 1).val = win0_5.index t (1 : Fin 2) * 256 + 1 * (j 1).val; omega

/-- An index of the row is in point t's block iff each coordinate is in the block's range on its axis. -/
theorem mem_blk (t : Fin cfg0.N) (i : S1x1024.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v2).slice (win0_5.rect t)).set ↔ _
  rw [View.set_slice_whole, Rect.mem_set_unit]
  exact Iff.rfl

/-- Every entry of the row is in the block of the point its column falls in. -/
theorem cover (i : S1x1024.Idx) : ∃ t : Fin cfg0.N, (cfg0.win 5).flush t = true ∧ i ∈ ((cfg0.win 5).blk t).view.set := by
  have hi0 : (i 0).val < 1 := (i 0).isLt
  have hi1 : (i 1).val < 1024 := (i 1).isLt
  let t : Fin cfg0.N := ⟨(i 1).val / 256, by show (i 1).val / 256 < 4; omega⟩
  obtain ⟨-, -, -, -, -, -, -, -, -, -, e50, e51⟩ := idx_facts t
  have ht : t.val = (i 1).val / 256 := rfl
  refine ⟨t, flush0_5 t, ?_⟩
  rw [mem_blk]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 256 ≤ (i 1).val ∧ (i 1).val < win0_5.index t (1 : Fin 2) * 256 + 256; omega

/-- THE ROW after the first region: the column values of the edge features, from the arrays as the region finds them. -/
theorem row_final (c : Dev nD) :
    (dat0 V c).arrAt 5 cfg0.N = rowOf (V c main_arg3) (V c main_v0) (V c main_arg5) (V c main_v1) (V c main_arg2) :=
  (dat0 V c).arrAt_eq_of_cover 5 _ (fun t _ => flushed_eq V c t) cover

end Cert.KernelIdeal.RowArray

end
-- ==== Proof.NodeArray.lean ====
/-
  The array the second kernel leaves: the row repeated for every node.

  Grid point t of the ten stages the whole row and writes back node rows 1000·t … 1000·t + 999, each a copy of the row.
  So the entry at (n, l) is written by point n / 1000 and holds the row's entry l; the ten blocks tile the result.
-/
import proofs.«145573_j77884936945808_1_alg».proof.Proof.Gen.KernelIdeal.Frame
import Idealize.ShloMosaic.Lib.Pipeline.Value
import Idealize.ShloMosaic.Lib.ValueIdx

set_option maxRecDepth 16384

noncomputable section

namespace Cert.KernelIdeal.NodeArray

open Cert.KernelIdeal Cert.KernelIdeal.Gen Idealize.ShloMosaic Idealize.ShloMosaic.TcCoe Idealize.ShloMosaic.ValueIdx
open Idealize.SL.Sem
open Idealize.ShloMosaic.Pipeline (Dat)

/-- A row laid under every node: the entry at (n, l) is the row's entry l. -/
def spread (row : Vec Ideal S1x1024 .f32) : Vec Ideal S10000x1024 .f32 := fun i => row (ix2 0 (i 1))

/-- The body's store, a row broadcast down 1000 rows, reads at (r, l) the row at l. -/
theorem pay_apply (x0 : Vec Ideal S1x1024 .f32) (r : Fin 1000) (l : Fin 1024) :
    k1_pay1 (F := Ideal) x0 (ix2 r l) = x0 (ix2 0 l) := by
  unfold k1_pay1
  rw [shapeCast_self, shapeCast_self]
  exact broadcastTo_apply x0 _ (ix2 r l) (ix2 0 l) fun a => by
    match a with
    | ⟨0, _⟩ => show (0 : Nat) = if (1 : Nat) = 1 then 0 else _; rw [if_pos rfl]
    | ⟨1, _⟩ => show l.val = if (1024 : Nat) = 1 then 0 else l.val; rw [if_neg (by decide)]

/-- One point's store at entry j is the spread row at index i, when the point's block is the row and the two indices
    share their column. -/
theorem point_eq (x0 : Vec Ideal S1x1024 .f32) (row : Vec Ideal S1x1024 .f32) (j : S1000x1024.Idx) (i : S10000x1024.Idx)
    (h0 : x0 = row) (h1 : j 1 = i 1) : k1_pay1 (F := Ideal) x0 j = spread row i := by
  subst h0
  obtain ⟨r, l, rfl⟩ : ∃ (r : Fin 1000) (l : Fin 1024), j = ix2 r l := ⟨j 0, j 1, eq_ix2 j⟩
  rw [pay_apply]
  unfold spread
  exact congrArg (fun l' => x0 (ix2 0 l')) h1

theorem hz : (![0, 0] : Fin 2 → Nat) = fun _ => 0 := funext fun a => by fin_cases a <;> rfl

/-- The printed index maps over the ten points: the row window stays at block (0, 0); the result window is at block (t, 0). -/
theorem idx_facts : ∀ t : Fin cfg1.N, win1_0.index t (0 : Fin 2) = 0 ∧ win1_0.index t (1 : Fin 2) = 0
    ∧ win1_1.index t (0 : Fin 2) = t.val ∧ win1_1.index t (1 : Fin 2) = 0 :=
  (by decide +kernel : ∀ t : Fin grid1.N, _)

variable (V : (c : Dev nD) → (b : Ref sig .tc) → Buf (Elt Ideal) ((c : Thread nD τ).loc b))

/-- WHAT POINT t WRITES BACK is block t of the spread row, the row as the region finds it. -/
theorem flushed_eq (c : Dev nD) (t : Fin cfg1.N) :
    (dat1 V c).flushed 1 t = ((cfg1.win 1).blk t).view.read (Elt Ideal) (spread (V c main_v2)) := by
  show (cfg1.win 1).cut (grid1.coords t) ((dat1 V c).after 1 t) = _
  rw [after1_1]
  unfold out1_1
  rw [View.canon_unit_zero hz]
  simp only [View.ld_unit_zero (S := S1x1024) hz]
  obtain ⟨e00, e01, e10, e11⟩ := idx_facts t
  funext j
  show k1_pay1 (F := Ideal) (iblk1 V c 0 t) j = spread (V c main_v2) (((cfg1.win 1).blk t).view.emb j)
  refine point_eq (iblk1 V c 0 t) (V c main_v2) j (((cfg1.win 1).blk t).view.emb j) ?_ ?_
  · funext y
    show V c main_v2 (((cfg1.win 0).blk t).view.emb y) = V c main_v2 y
    refine congrArg (V c main_v2) (funext fun a => Fin.ext ?_)
    match a with
    | ⟨0, _⟩ => show win1_0.index t (0 : Fin 2) * 1 + 1 * (y 0).val = (y 0).val; omega
    | ⟨1, _⟩ => show win1_0.index t (1 : Fin 2) * 1024 + 1 * (y 1).val = (y 1).val; omega
  · refine Fin.ext ?_
    show (j 1).val = win1_1.index t (1 : Fin 2) * 1024 + 1 * (j 1).val
    omega

/-- An index of the result is in point t's block iff each coordinate is in the block's range on its axis. -/
theorem mem_blk (t : Fin cfg1.N) (i : S10000x1024.Idx) :
    i ∈ ((cfg1.win 1).blk t).view.set ↔ ∀ a : Fin 2, win1_1.index t a * S1000x1024.size a ≤ (i a).val ∧ (i a).val < win1_1.index t a * S1000x1024.size a + S1000x1024.size a := by
  show i ∈ ((View.whole main_v3).slice (win1_1.rect t)).set ↔ _
  rw [View.set_slice_whole, Rect.mem_set_unit]
  exact Iff.rfl

/-- Every entry of the result is in the block of the point its node row falls in. -/
theorem cover (i : S10000x1024.Idx) : ∃ t : Fin cfg1.N, (cfg1.win 1).flush t = true ∧ i ∈ ((cfg1.win 1).blk t).view.set := by
  have hi0 : (i 0).val < 10000 := (i 0).isLt
  have hi1 : (i 1).val < 1024 := (i 1).isLt
  let t : Fin cfg1.N := ⟨(i 0).val / 1000, by show (i 0).val / 1000 < 10; omega⟩
  obtain ⟨-, -, e10, e11⟩ := idx_facts t
  have ht : t.val = (i 0).val / 1000 := rfl
  refine ⟨t, flush1_1 t, ?_⟩
  rw [mem_blk]
  intro a
  match a with
  | ⟨0, _⟩ => show win1_1.index t (0 : Fin 2) * 1000 ≤ (i 0).val ∧ (i 0).val < win1_1.index t (0 : Fin 2) * 1000 + 1000; omega
  | ⟨1, _⟩ => show win1_1.index t (1 : Fin 2) * 1024 ≤ (i 1).val ∧ (i 1).val < win1_1.index t (1 : Fin 2) * 1024 + 1024; omega

/-- THE RESULT after the second region: the row, as the region finds it, under every node. -/
theorem node_final (c : Dev nD) : (dat1 V c).arrAt 1 cfg1.N = spread (V c main_v2) :=
  (dat1 V c).arrAt_eq_of_cover 1 _ (fun t _ => flushed_eq V c t) cover

end Cert.KernelIdeal.NodeArray

end
-- ==== Proof.ResultSpec.lean ====
/-
  The result as one function of the argument arrays, over their own shapes: at node n and position l, the column value
  (ColumnSpec) of column l of the edge features, with the first bias read as a vector of 240 and the second as a vector
  of one. It does not depend on n.
-/
import proofs.«145573_j77884936945808_1_alg».proof.Proof.ColumnSpec

noncomputable section

namespace Cert.ResultSpec

open Idealize.ShloMosaic Idealize.ShloMosaic.ValueIdx Cert.ColumnSpec

/-- The result array of both programs. -/
def nodeValue (w3 : (⟨2, ![240, 8192]⟩ : Shape).Idx → EReal) (b3 : (⟨1, ![240]⟩ : Shape).Idx → EReal)
    (w4 : (⟨2, ![1, 240]⟩ : Shape).Idx → EReal) (b4 : (⟨1, ![1]⟩ : Shape).Idx → EReal)
    (ea : (⟨2, ![8192, 1024]⟩ : Shape).Idx → EReal) : (⟨2, ![10000, 1024]⟩ : Shape).Idx → EReal :=
  fun i => value w3 (fun c => b3 (ix1 c)) w4 (b4 (ix1 0)) (fun k => ea (ix2 k (i 1)))

end Cert.ResultSpec

end
-- ==== Proof.KernelValue.lean ====
/-
  The kernel's result array is the result specification of the launch arrays.

  The result is what the second region's write-backs leave: the row, as that region finds it, under every node. The row
  is what the first region's write-backs leave: the column values of the edge features, from the arrays as that region
  finds them. The first region finds the weights and the features as launched and the two biases recast by the host, a
  vector of 240 as a column and a vector of one as a cell; recasting keeps the row-major order, so the column at c is
  the vector at c.
-/
import proofs.«145573_j77884936945808_1_alg».proof.Proof.Gen.KernelIdeal.Frame
import proofs.«145573_j77884936945808_1_alg».proof.Proof.RowArray
import proofs.«145573_j77884936945808_1_alg».proof.Proof.NodeArray
import proofs.«145573_j77884936945808_1_alg».proof.Proof.ResultSpec
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo Cert.ColumnSpec Cert.ResultSpec
open Cert.KernelIdeal.RowArray Cert.KernelIdeal.NodeArray

variable (m : (ℓ : Loc nD τ sig) → Buf (Elt Ideal) ℓ) (ρ : Dev nD → PrngReg)

/-- The first region finds the first bias as the launched vector recast as a column. -/
theorem entry_b3 (c : Dev nD) :
    (V1 m ρ c main_v0 : S240x1.Idx → EReal) = shapeCast S240x1 (m ((c.tc : Thread nD τ).loc main_arg4)) Facts₀.shapeCasts_S240_S240x1 := by
  show StableHlo.after hostOps0 (W0 m ρ c) (Proc.devRef .tc main_v0) = _
  after_results
  rfl

/-- It finds the second bias as the launched vector of one recast as a cell. -/
theorem entry_b4 (c : Dev nD) :
    (V1 m ρ c main_v1 : S1x1.Idx → EReal) = shapeCast S1x1 (m ((c.tc : Thread nD τ).loc main_arg6)) Facts₀.shapeCasts_S1_S1x1 := by
  show StableHlo.after hostOps0 (W0 m ρ c) (Proc.devRef .tc main_v1) = _
  after_results
  rfl

/-- It finds the first weights as launched: the host's two recasts write other buffers. -/
theorem entry_w3 (c : Dev nD) : (V1 m ρ c main_arg3 : S240x8192.Idx → EReal) = m ((c.tc : Thread nD τ).loc main_arg3) := by
  show StableHlo.after hostOps0 (W0 m ρ c) (Proc.devRef .tc main_arg3) = _
  after_results
/-- The second weights likewise. -/
theorem entry_w4 (c : Dev nD) : (V1 m ρ c main_arg5 : S1x240.Idx → EReal) = m ((c.tc : Thread nD τ).loc main_arg5) := by
  show StableHlo.after hostOps0 (W0 m ρ c) (Proc.devRef .tc main_arg5) = _
  after_results
/-- The edge features likewise. -/
theorem entry_ea (c : Dev nD) : (V1 m ρ c main_arg2 : S8192x1024.Idx → EReal) = m ((c.tc : Thread nD τ).loc main_arg2) := by
  show StableHlo.after hostOps0 (W0 m ρ c) (Proc.devRef .tc main_arg2) = _
  after_results

/-- A vector of 240 recast as a column reads, at (c, 0), the vector at c. -/
theorem col_apply (v : S240.Idx → EReal) (c : Fin 240) :
    shapeCast S240x1 v Facts₀.shapeCasts_S240_S240x1 (ix2 c (0 : Fin 1)) = v (ix1 c) :=
  shapeCast_apply v _ (ix2 c (0 : Fin 1)) (ix1 c) (by
    rw [Shape.rowMajor_val_one, Shape.rowMajor_val_two]
    show c.val = c.val * 1 + (0 : Nat)
    omega)

/-- A vector of one recast as a cell reads that one value. -/
theorem cell_apply (v : S1.Idx → EReal) :
    shapeCast S1x1 v Facts₀.shapeCasts_S1_S1x1 (ix2 (0 : Fin 1) (0 : Fin 1)) = v (ix1 0) :=
  shapeCast_apply v _ (ix2 (0 : Fin 1) (0 : Fin 1)) (ix1 0) (by
    rw [Shape.rowMajor_val_one, Shape.rowMajor_val_two]
    show (0 : Nat) = (0 : Nat) * 1 + (0 : Nat)
    omega)

/-- The row of the recast biases, laid under every node, is the result specification of the biases as vectors. -/
theorem spread_row_eq (w3 : Vec Ideal S240x8192 .f32) (b3 : S240.Idx → EReal) (w4 : Vec Ideal S1x240 .f32) (b4 : S1.Idx → EReal)
    (ea : Vec Ideal S8192x1024 .f32) :
    spread (rowOf w3 (shapeCast S240x1 b3 Facts₀.shapeCasts_S240_S240x1) w4 (shapeCast S1x1 b4 Facts₀.shapeCasts_S1_S1x1) ea)
      = nodeValue w3 b3 w4 b4 ea := by
  funext i
  obtain ⟨n, l, rfl⟩ : ∃ (n : Fin 10000) (l : Fin 1024), i = ix2 n l := ⟨i 0, i 1, eq_ix2 i⟩
  show value w3 (fun c' => shapeCast S240x1 b3 Facts₀.shapeCasts_S240_S240x1 (ix2 c' (0 : Fin 1))) w4
        (shapeCast S1x1 b4 Facts₀.shapeCasts_S1_S1x1 (ix2 (0 : Fin 1) (0 : Fin 1))) (fun k => ea (ix2 k l))
      = value w3 (fun c' => b3 (ix1 c')) w4 (b4 (ix1 0)) (fun k => ea (ix2 k l))
  rw [cell_apply]
  exact congrArg (fun b => value w3 b w4 (b4 (ix1 0)) (fun k => ea (ix2 k l))) (funext fun c' => col_apply b3 c')

/-- THE RESULT ARRAY at the last boundary is the result specification of the launch arrays. -/
theorem result_eq (c : Dev nD) :
    (W3 m ρ c (Proc.devRef .tc main_v3) : S10000x1024.Idx → EReal)
      = nodeValue (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg2)) := by
  refine (W3_arr m ρ c 1).trans ?_
  rw [node_final]
  have hrow : (V2 m ρ c main_v2 : S1x1024.Idx → EReal)
      = rowOf (V1 m ρ c main_arg3) (V1 m ρ c main_v0) (V1 m ρ c main_arg5) (V1 m ρ c main_v1) (V1 m ρ c main_arg2) :=
    (W2_arr m ρ c 5).trans (row_final (V1 m ρ) c)
  rw [hrow, entry_w3, entry_b3, entry_w4, entry_b4, entry_ea]
  exact spread_row_eq _ _ _ _ _

end Cert.KernelIdeal.KernelValue

end
-- ==== Proof.RefValue.lean ====
/-
  The reference computes the result specification, index by index.

  Its first product contracts the edges, the bias vector is laid along the channels and broadcast along the length, the
  rectifier is a maximum against zero: channel c at position l is the specification's channel on column l. The second
  product contracts the channels; the sigmoid is spelt one over one plus the exponential of the negation, which is the
  logistic function; the gate is broadcast down the channels, the channel sum starts from zero, and the row is laid
  under every node and divided by 1024, which is the product with 2⁻¹⁰.
-/
import proofs.«145573_j77884936945808_1_alg».proof.Proof.Gen.ReferenceIdeal.Read
import proofs.«145573_j77884936945808_1_alg».proof.Proof.ResultSpec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.ColumnSpec Cert.ResultSpec

/-! ## The composed index maps of the layout operations, at explicit coordinates -/

theorem lidx0 (c : Fin 240) (l : Fin 1024) (k : Fin 8192) : lidx_main_v0 (ix2 c l) k = ix2 c k :=
  funext fun a => Fin.ext (by match a with | ⟨0, _⟩ => rfl | ⟨1, _⟩ => rfl)
theorem ridx0 (c : Fin 240) (l : Fin 1024) (k : Fin 8192) : ridx_main_v0 (ix2 c l) k = ix2 k l :=
  funext fun a => Fin.ext (by match a with | ⟨0, _⟩ => rfl | ⟨1, _⟩ => rfl)
theorem idx12 (c : Fin 240) (l : Fin 1024) : idx_main_v1 (idx_main_v2 (ix2 c l)) = ix1 c :=
  funext fun a => Fin.ext (by match a with | ⟨0, _⟩ => rfl)
theorem lidx5 (l : Fin 1024) (k : Fin 240) : lidx_main_v5 (ix2 (0 : Fin 1) l) k = ix2 0 k :=
  funext fun a => Fin.ext (by match a with | ⟨0, _⟩ => rfl | ⟨1, _⟩ => rfl)
theorem ridx5 (l : Fin 1024) (k : Fin 240) : ridx_main_v5 (ix2 (0 : Fin 1) l) k = ix2 k l :=
  funext fun a => Fin.ext (by match a with | ⟨0, _⟩ => rfl | ⟨1, _⟩ => rfl)
theorem idx67 (j : S1x1024.Idx) : idx_main_v6 (idx_main_v7 j) = ix1 0 :=
  funext fun a => Fin.ext (by match a with | ⟨0, _⟩ => rfl)
theorem idx9 (l : Fin 1024) : idx_main_v9 (ix1 l) = ix2 0 l :=
  funext fun a => Fin.ext (by
    match a with
    | ⟨0, _⟩ => rfl
    | ⟨1, _⟩ => exact Nat.mod_eq_of_lt l.isLt)
theorem idx1819 (c : Fin 240) (l : Fin 1024) : idx_main_v18 (idx_main_v19 (ix2 c l)) = ix1 l :=
  funext fun a => Fin.ext (by match a with | ⟨0, _⟩ => rfl)
theorem idx21 (l : Fin 1024) (k : Fin 240) : idx_main_v21 (ix1 l) k = ix2 k l :=
  funext fun a => Fin.ext (by match a with | ⟨0, _⟩ => rfl | ⟨1, _⟩ => rfl)
theorem idx2223 (n : Fin 10000) (l : Fin 1024) : idx_main_v22 (idx_main_v23 (ix2 n l)) = ix1 l :=
  funext fun a => Fin.ext (by match a with | ⟨0, _⟩ => rfl)

variable (x2 : (⟨S8192x1024, .f32⟩ : BufTy).Contents (Elt Ideal)) (x3 : (⟨S240x8192, .f32⟩ : BufTy).Contents (Elt Ideal))
  (x4 : (⟨S240, .f32⟩ : BufTy).Contents (Elt Ideal)) (x5 : (⟨S1x240, .f32⟩ : BufTy).Contents (Elt Ideal))
  (x6 : (⟨S1, .f32⟩ : BufTy).Contents (Elt Ideal))

/-- The rectified first convolution: channel c at position l is the specification's channel c on column l. -/
theorem ref_act (c : Fin 240) (l : Fin 1024) :
    val_main_v4 (F := Ideal) x2 x3 x4 (ix2 c l) = act x3 (fun c => x4 (ix1 c)) (fun k => x2 (ix2 k l)) c := by
  rw [val_main_v4_apply, val_main_v3_apply, val_main_v0_apply, val_main_v2_apply, val_main_v1_apply,
    val_main_call0_v0_apply, val_main_call0_cst_apply, idx12]
  simp only [lidx0, ridx0]
  rfl

/-- One plus the sigmoid of the second convolution at position l is the specification's gate of column l's channels. -/
theorem ref_gate (l : Fin 1024) :
    val_main_v17 (F := Ideal) x2 x3 x4 x5 x6 (ix1 l)
      = gate x5 (x6 (ix1 0)) (act x3 (fun c => x4 (ix1 c)) (fun k => x2 (ix2 k l))) := by
  rw [val_main_v17_apply, val_main_v16_apply, val_main_cst_1_apply, val_main_v15_apply, val_main_v14_apply, val_main_cst_0_apply,
    val_main_v13_apply, val_main_v12_apply, val_main_cst_apply, val_main_v11_apply, val_main_v10_apply, val_main_v9_apply, idx9,
    val_main_v8_apply, val_main_v5_apply, val_main_v7_apply, val_main_v6_apply, idx67]
  simp only [lidx5, ridx5, ref_act]
  unfold gate
  exact congrArg (Ideal.ofBits .f32 0x3F800000#32 + ·) (sigmoid_eq _)

/-- THE REFERENCE'S RESULT at (n, l) is the result specification there. -/
theorem ref_value (i : S10000x1024.Idx) :
    val_main_v25 (F := Ideal) x2 x3 x4 x5 x6 i = nodeValue x3 x4 x5 x6 x2 i := by
  obtain ⟨n, l, rfl⟩ : ∃ (n : Fin 10000) (l : Fin 1024), i = ix2 n l := ⟨i 0, i 1, eq_ix2 i⟩
  rw [val_main_v25_apply, val_main_v24_apply, val_main_cst_3_apply, val_main_v23_apply, val_main_v22_apply, idx2223,
    val_main_v21_apply, val_main_cst_2_apply]
  have hterm : ∀ k : Fin 240, val_main_v20 (F := Ideal) x2 x3 x4 x5 x6 (idx_main_v21 (ix1 l) k)
      = act x3 (fun c => x4 (ix1 c)) (fun k => x2 (ix2 k l)) k
        * gate x5 (x6 (ix1 0)) (act x3 (fun c => x4 (ix1 c)) (fun k => x2 (ix2 k l))) := by
    intro k
    rw [idx21, val_main_v20_apply, val_main_v19_apply, val_main_v18_apply, idx1819, ref_act, ref_gate]
    rfl
  simp only [hterm]
  unfold nodeValue value
  show Ideal.div (Ideal.ofBits .f32 0x00000000#32 + _) (Ideal.ofBits .f32 0x44800000#32) = _
  rw [Ideal.ofBits_zero_f32, zero_add]
  exact (scale_eq _).symm

/-- As whole arrays. -/
theorem ref_value_eq : val_main_v25 (F := Ideal) x2 x3 x4 x5 x6 = nodeValue x3 x4 x5 x6 x2 :=
  funext (ref_value x2 x3 x4 x5 x6)

end Cert.ReferenceIdeal.RefValue

end
-- ==== Proof.lean ====
/-
  A message-passing node model: two 1×1 convolutions over the edges with a sigmoid gate, summed over channels and laid
  under every node. Kernel against reference, over the extended reals.

  Both programs compute, at node n and position l, the value
      (Σ_c a_c · (1 + σ(Σ_c' W₄[c']·a_c' + b₄))) / 1024,      a_c = max(Σ_k W₃[c,k]·E[k,l] + b₃[c], 0),
  where E is the edge-feature array and σ the logistic function: the same for every node n (ResultSpec, ColumnSpec).

  The kernel runs two grids. The first walks the length in four blocks of 256 columns; each point contracts all the
  edges and then all the channels inside its block, so its 256 stored values are the column values of its columns
  (TileBody), and the four blocks tile a row of 1024 (RowArray). The second walks the nodes in ten blocks of 1000 and
  copies that row under each (NodeArray). Read through the run of the two regions, the result array is the
  specification of the launch arrays (KernelRun, KernelValue). The reference computes the same stage by stage
  (RefValue). Two spellings differ and denote the same extended reals: the kernel multiplies the channel sum by the
  dyadic 2⁻¹⁰ where the reference divides by 1024, and the kernel applies the logistic function where the reference
  writes one over one plus the exponential of the negation. No other law is used, so the inputs' finiteness is never
  opened: sums are only re-indexed, never reordered across a product.

  The frames of the two kernel programs are the generated ones; the reference's is its generated run with the result
  dropped. The idealization rewrote nothing, so there is nothing to preserve.
-/
import proofs.«145573_j77884936945808_1_alg».proof.Defs
import proofs.«145573_j77884936945808_1_alg».proof.Proof.Gen.Kernel
import proofs.«145573_j77884936945808_1_alg».proof.Proof.Gen.Kernel.Skeleton
import proofs.«145573_j77884936945808_1_alg».proof.Proof.Gen.Kernel.Launch
import proofs.«145573_j77884936945808_1_alg».proof.Proof.Gen.Kernel.Points
import proofs.«145573_j77884936945808_1_alg».proof.Proof.Gen.Kernel.Frame
import proofs.«145573_j77884936945808_1_alg».proof.Proof.Gen.KernelIdeal
import proofs.«145573_j77884936945808_1_alg».proof.Proof.Gen.KernelIdeal.Skeleton
import proofs.«145573_j77884936945808_1_alg».proof.Proof.Gen.KernelIdeal.Launch
import proofs.«145573_j77884936945808_1_alg».proof.Proof.Gen.KernelIdeal.Points
import proofs.«145573_j77884936945808_1_alg».proof.Proof.Gen.KernelIdeal.Frame
import proofs.«145573_j77884936945808_1_alg».proof.Proof.Gen.ReferenceIdeal
import proofs.«145573_j77884936945808_1_alg».proof.Proof.Gen.Pre_finite_inputs
import proofs.«145573_j77884936945808_1_alg».proof.Proof.Gen.ReferenceIdeal.Run
import proofs.«145573_j77884936945808_1_alg».proof.Proof.Gen.ReferenceIdeal.Read
import proofs.«145573_j77884936945808_1_alg».proof.Proof.KernelRun
import proofs.«145573_j77884936945808_1_alg».proof.Proof.KernelValue
import proofs.«145573_j77884936945808_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result specification of those arguments. -/
theorem algebraic : Cert.algebraic_KernelIdeal_ReferenceIdeal := by
  intro m ρ m' ρ' _ hagree
  refine ⟨fun c => Cert.ResultSpec.nodeValue
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KernelValue.result_eq m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.RefValue.ref_value_eq,
      (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
